-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x2048 : Shape := ⟨4, ![1, 16, 2048, 2048]⟩
abbrev S1x1x2048x2048 : Shape := ⟨4, ![1, 1, 2048, 2048]⟩
abbrev S1x16x2048x64 : Shape := ⟨4, ![1, 16, 2048, 64]⟩
abbrev S_ : Shape := ⟨0, ![]⟩

class Facts : Prop where
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_
  h_S_ : 0 < S_.numel
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_

variable [Facts]

def fn {F : FTy → Type} [FloatOps F] (main_arg0 : FVec F S1x16x2048x2048 .f32) (main_arg1 : IVec S1x1x2048x2048 32) (main_arg2 : FVec F S1x16x2048x64 .f32) : IVec S_ 1 :=
  let main_v0 : FVec F S1x16x2048x2048 .f32 := Host.absf main_arg0
  let main_cst : FVec F S_ .f32 := constant S_ .f32 0x7F800000#32
  let main_v1 : FVec F S1x16x2048x2048 .f32 := broadcastInDim S1x16x2048x2048 ![] bcast_S_S1x16x2048x2048 main_cst
  let main_v2 : IVec S1x16x2048x2048 1 := cmpf .olt main_v0 main_v1
  let main_c : IVec S_ 1 := constantI S_ 1 1#1
  let main_v3 : IVec S_ 1 := (fun x v => Host.reduce IntOp.andi x v reducesTo_S1x16x2048x2048_S_d0_1_2_3 h_S_) main_v2 main_c
  let main_v4 : FVec F S1x16x2048x64 .f32 := Host.absf main_arg2
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  main_v8
-- ==== Kernel.lean ====
abbrev S1x16x2048x2048 : Shape := ⟨4, ![1, 16, 2048, 2048]⟩
abbrev S1x1x2048x2048 : Shape := ⟨4, ![1, 1, 2048, 2048]⟩
abbrev S1x16x2048x64 : Shape := ⟨4, ![1, 16, 2048, 64]⟩
abbrev S16x2048x2048 : Shape := ⟨3, ![16, 2048, 2048]⟩
abbrev S2048x2048 : Shape := ⟨2, ![2048, 2048]⟩
abbrev S16x2048x64 : Shape := ⟨3, ![16, 2048, 64]⟩
abbrev S1x256x2048 : Shape := ⟨3, ![1, 256, 2048]⟩
abbrev S256x2048 : Shape := ⟨2, ![256, 2048]⟩
abbrev S1x256x64 : Shape := ⟨3, ![1, 256, 64]⟩
abbrev S1x2048x64 : Shape := ⟨3, ![1, 2048, 64]⟩
abbrev S2048x64 : Shape := ⟨2, ![2048, 64]⟩
abbrev S256x64 : Shape := ⟨2, ![256, 64]⟩

abbrev nBuf : Space → Nat
  | .hbm => 8
  | .vmem => 7
  | .smem => 0
  | _ => 0

abbrev bufTy : (tb : Table) → Fin (tcTables nBuf tb) → BufTy
  | .hbm, ⟨0, _⟩ => ⟨S1x16x2048x2048, .f32⟩
  | .hbm, ⟨1, _⟩ => ⟨S1x1x2048x2048, .i32⟩
  | .hbm, ⟨2, _⟩ => ⟨S1x16x2048x64, .f32⟩
  | .hbm, ⟨3, _⟩ => ⟨S16x2048x2048, .f32⟩
  | .hbm, ⟨4, _⟩ => ⟨S2048x2048, .i32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .i32⟩
  | .local _ .vmem, ⟨3, _⟩ => ⟨S256x2048, .i32⟩
  | .local _ .vmem, ⟨4, _⟩ => ⟨S16x2048x64, .f32⟩
  | .local _ .vmem, ⟨5, _⟩ => ⟨S1x256x64, .f32⟩
  | .local _ .vmem, ⟨6, _⟩ => ⟨S1x256x64, .f32⟩
  | _, _ => ⟨S1x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_off1 (i : grid0.Coords) : Fin 3 → Nat :=
  let arg1 : BitVec 32 := BitVec.ofNat 32 (i 1).val
  let v6 : Index := Scalar.indexCast arg1
  let c0_4 : Index := 0#32
  let c0_5 : Index := 0#32
  ![v6.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x2048_S16x2048x2048 : S1x16x2048x2048.ShapeCasts S16x2048x2048
  shapeCasts_S1x1x2048x2048_S2048x2048 : S1x1x2048x2048.ShapeCasts S2048x2048
  shapeCasts_S1x16x2048x64_S16x2048x64 : S1x16x2048x64.ShapeCasts S16x2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S1x2048x64 : 0 < S1x2048x64.numel
  shapeCasts_S1x2048x64_S2048x64 : S1x2048x64.ShapeCasts S2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  shapeCasts_S16x2048x64_S1x16x2048x64 : S16x2048x64.ShapeCasts S1x16x2048x64
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x2048x64.size a ≤ S16x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x2048x2048.size a
  hwx0_0 : ∀ i : grid0.Coords, EltTy.bits .f32 = 32 ∨ (Rect.block (s := S16x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .i32 = 32 ∨ (Rect.block (s := S2048x2048) S256x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048x64.size a ≤ S16x2048x64.size a
  hwx0_2 : ∀ i : grid0.Coords, EltTy.bits .f32 = 32 ∨ (Rect.block (s := S16x2048x64) S16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x2048 : Shape := ⟨4, ![1, 16, 2048, 2048]⟩
abbrev S1x1x2048x2048 : Shape := ⟨4, ![1, 1, 2048, 2048]⟩
abbrev S1x16x2048x64 : Shape := ⟨4, ![1, 16, 2048, 64]⟩

abbrev nBuf : Space → Nat
  | .hbm => 7
  | .vmem => 0
  | .smem => 0
  | _ => 0

abbrev bufTy : (tb : Table) → Fin (tcTables nBuf tb) → BufTy
  | .hbm, ⟨0, _⟩ => ⟨S1x16x2048x2048, .f32⟩
  | .hbm, ⟨1, _⟩ => ⟨S1x1x2048x2048, .i32⟩
  | .hbm, ⟨2, _⟩ => ⟨S1x16x2048x64, .f32⟩
  | .hbm, ⟨3, _⟩ => ⟨S1x1x2048x2048, .f32⟩
  | .hbm, ⟨4, _⟩ => ⟨S1x16x2048x2048, .f32⟩
  | .hbm, ⟨5, _⟩ => ⟨S1x16x2048x2048, .f32⟩
  | .hbm, ⟨6, _⟩ => ⟨S1x16x2048x64, .f32⟩
  | _, _ => ⟨S1x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S1x1x2048x2048_S1x16x2048x2048_0_1_2_3 : S1x1x2048x2048.BroadcastsInDim S1x16x2048x2048 (![0, 1, 2, 3] : Fin 4 → Fin S1x16x2048x2048.rank)
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Spec.lean ====
/-
  The function both programs compute, stated once over the argument arrays.

  For a: [1,16,2048,2048] (reals), mask: [1,1,2048,2048] (32-bit integers, read signed) and b: [1,16,2048,64] (reals),
  the result at (0, h, r, d) is

      sum over k < 2048 of  (a[0,h,r,k] * mask[0,0,r,k]) * b[0,h,k,d] :

  head h's row r of a, masked entry by entry with row r of the one mask shared by all heads, contracted with column d
  of head h's b. The kernel reaches it one 256-row block and one head at a time through a matrix product into a zero
  accumulator; the reference through a broadcast of the mask over the heads and one batched contraction. Over the
  extended reals the two are the same sum of the same terms in the same order, so no law of arithmetic beyond
  re-indexing is needed and the inputs' finiteness is never used.
-/
import Idealize.ShloMosaic.PureOps.Ideal
import Idealize.ShloMosaic.Lib.ValueIdx

noncomputable section

open scoped BigOperators

namespace Cert.MaskedProduct

open Idealize.ShloMosaic Idealize.ShloMosaic.ValueIdx

/-- The three argument shapes and the reshaped ones the kernel's pipeline sees. -/
abbrev ShA : Shape := ⟨4, ![1, 16, 2048, 2048]⟩
abbrev ShM : Shape := ⟨4, ![1, 1, 2048, 2048]⟩
abbrev ShB : Shape := ⟨4, ![1, 16, 2048, 64]⟩

/-- One term of the contraction: the masked entry of a times the entry of b. -/
def term (a : ShA.Idx → EReal) (mk : ShM.Idx → BitVec 32) (b : ShB.Idx → EReal)
    (h : Fin 16) (r : Fin 2048) (d : Fin 64) (k : Fin 2048) : EReal :=
  (a (ix4 0 h r k) * (((mk (ix4 0 0 r k)).toInt : ℝ) : EReal)) * b (ix4 0 h k d)

/-- The masked batched product, index by index. -/
def maskedProduct (a : ShA.Idx → EReal) (mk : ShM.Idx → BitVec 32) (b : ShB.Idx → EReal) : ShB.Idx → EReal :=
  fun i => ∑ k : Fin 2048, term a mk b (i 1) (i 2) (i 3) k

theorem maskedProduct_apply (a : ShA.Idx → EReal) (mk : ShM.Idx → BitVec 32) (b : ShB.Idx → EReal)
    (h : Fin 16) (r : Fin 2048) (d : Fin 64) :
    maskedProduct a mk b (ix4 0 h r d) = ∑ k : Fin 2048, term a mk b h r d k := rfl

end Cert.MaskedProduct

end
-- ==== Proof.RefValue.lean ====
/-
  The reference's result is the masked product.

  The reference converts the mask to reals, repeats it over the sixteen heads, multiplies it into a entry by entry and
  contracts the last axis of that product with the third axis of b, heads paired. Read at the index (0, h, r, d), the
  generated stage lemmas give the sum over k of (a[0,h,r,k] * real(mask at the broadcast's source index)) * b[0,h,k,d];
  the broadcast's source index of (0, h, r, k) is (0, 0, r, k), so each term is the specification's term.
-/
import proofs.«118540_g11879879542650_cont_sun_m_840_3_alg».proof.Proof.Gen.ReferenceIdeal.Run
import proofs.«118540_g11879879542650_cont_sun_m_840_3_alg».proof.Proof.Gen.ReferenceIdeal.Read
import proofs.«118540_g11879879542650_cont_sun_m_840_3_alg».proof.Proof.Spec

noncomputable section

open scoped BigOperators

namespace Cert.ReferenceIdeal.RefValue

open Cert.ReferenceIdeal Cert.ReferenceIdeal.Read Idealize.ShloMosaic Idealize.ShloMosaic.ValueIdx Cert.MaskedProduct

/-- The contraction's left operand index at output (0, h, r, d) and position k is (0, h, r, k). -/
theorem left_index (h : Fin 16) (r : Fin 2048) (d : Fin 64) (k : Fin 2048) :
    lidx_main_v3 (ix4 (0 : Fin 1) h r d) k = ix4 (0 : Fin 1) h r k :=
  funext fun a => Fin.ext (by match a with | ⟨0, _⟩ => rfl | ⟨1, _⟩ => rfl | ⟨2, _⟩ => rfl | ⟨3, _⟩ => rfl)

/-- Its right operand index is (0, h, k, d). -/
theorem right_index (h : Fin 16) (r : Fin 2048) (d : Fin 64) (k : Fin 2048) :
    ridx_main_v3 (ix4 (0 : Fin 1) h r d) k = ix4 (0 : Fin 1) h k d :=
  funext fun a => Fin.ext (by match a with | ⟨0, _⟩ => rfl | ⟨1, _⟩ => rfl | ⟨2, _⟩ => rfl | ⟨3, _⟩ => rfl)

/-- The mask repeated over the heads reads, at (0, h, r, k), the mask at (0, 0, r, k). -/
theorem mask_index (h : Fin 16) (r : Fin 2048) (k : Fin 2048) :
    idx_main_v1 (ix4 (0 : Fin 1) h r k) = ix4 (0 : Fin 1) (0 : Fin 1) r k :=
  funext fun a => Fin.ext (by match a with | ⟨0, _⟩ => rfl | ⟨1, _⟩ => rfl | ⟨2, _⟩ => rfl | ⟨3, _⟩ => rfl)

/-- The reference's last stage, over the extended reals, is the masked product of its three arguments. -/
theorem reference_eq (x0 : ShA.Idx → EReal) (x1 : ShM.Idx → BitVec 32) (x2 : ShB.Idx → EReal) :
    val_main_v3 (F := Ideal) x0 x1 x2 = maskedProduct x0 x1 x2 := by
  funext i
  obtain ⟨z, h, r, d, rfl⟩ : ∃ (z : Fin 1) (h : Fin 16) (r : Fin 2048) (d : Fin 64), i = ix4 z h r d :=
    ⟨i 0, i 1, i 2, i 3, eq_ix4 i⟩
  obtain rfl : z = 0 := Subsingleton.elim _ _
  rw [val_main_v3_apply, maskedProduct_apply]
  refine Finset.sum_congr rfl fun k _ => ?_
  rw [left_index, right_index, val_main_v2_apply, val_main_v1_apply, mask_index, val_main_v0_apply]
  rfl

end Cert.ReferenceIdeal.RefValue

end
-- ==== Proof.BlockValue.lean ====
/-
  One grid point's arithmetic, read at an index.

  At a grid point the body holds a 256-row block x0 of one head's a (as [1,256,2048]), the matching 256 rows x1 of
  the mask (as [256,2048], integers) and that head's whole b, x7 (as [1,2048,64]). It drops the unit axes, converts
  the mask rows to reals, multiplies them into the a block entry by entry, and multiplies the [256,2048] result with
  the [2048,64] matrix into a zero accumulator; the [256,64] product gets its unit axis back and is stored. So the
  stored block at (0, p, d) is the sum over k of (x0[0,p,k] * real(x1[p,k])) * x7[0,k,d].
-/
import proofs.«118540_g11879879542650_cont_sun_m_840_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The matrix product's operand indices, axis by axis -/

/-- The left operand's row is the output's row. -/
theorem left_row (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
/-- The left operand's column is the contraction position. -/
theorem left_col (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
/-- The right operand's row is the contraction position. -/
theorem right_row (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
/-- The right operand's column is the output's column. -/
theorem right_col (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- A [256,2048] by [2048,64] product into the zero accumulator, at (p, d): the plain sum over the 2048 positions. -/
theorem product_apply (l : FVec Ideal S256x2048 .f32) (r : FVec Ideal S2048x64 .f32) (p : Fin 256) (d : Fin 64) :
    matmul dot_S256x2048_S2048x64_S256x64_1_0_0_1_n_n none l r (constant (F := Ideal) S256x64 .f32 0x00000000#32) (ix2 p d)
      = ∑ k : Fin 2048, l (ix2 p k) * r (ix2 k d) := by
  refine (Ideal.matmul_constant_zero_apply dot_S256x2048_S2048x64_S256x64_1_0_0_1_n_n none l r (ix2 p d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p d) ((contrEquiv1 dot_S256x2048_S2048x64_S256x64_1_0_0_1_n_n 2048 rfl rfl).symm k) = ix2 p k :=
    funext fun a => Fin.ext (by
      match a with
      | ⟨0, _⟩ => exact left_row _ _
      | ⟨1, _⟩ => exact (left_col _ _).trans hk)
  have er : dot_S256x2048_S2048x64_S256x64_1_0_0_1_n_n.rhsIdx (ix2 p d) ((contrEquiv1 dot_S256x2048_S2048x64_S256x64_1_0_0_1_n_n 2048 rfl rfl).symm k) = ix2 k d :=
    funext fun a => Fin.ext (by
      match a with
      | ⟨0, _⟩ => exact (right_row _ _).trans hk
      | ⟨1, _⟩ => exact right_col _ _)
  rw [el, er]

/-! ## The stored block -/

/-- The body's one stored value at (0, p, d). -/
theorem stored_apply (x0 : FVec Ideal S1x256x2048 .f32) (x1 : S256x2048.Idx → BitVec 32) (x7 : FVec Ideal S1x2048x64 .f32)
    (u : Fin 1) (p : Fin 256) (d : Fin 64) :
    k0_pay1 (F := Ideal) x0 x1 x7 (ix3 u p d)
      = ∑ k : Fin 2048, (x0 (ix3 (0 : Fin 1) p k) * (((x1 (ix2 p k)).toInt : ℝ) : EReal)) * x7 (ix3 (0 : Fin 1) k d) := by
  unfold k0_pay1
  refine (shapeCast_ab_1ab_apply _ _ u p d).trans ?_
  refine (product_apply _ _ p d).trans ?_
  refine Finset.sum_congr rfl fun k _ => ?_
  rw [shapeCast_1ab_ab_apply, mulf_apply, shapeCast_1ab_ab_apply, sitofp_apply, shapeCast_self]
  rfl

end Cert.KernelIdeal.BlockValue

end
-- ==== Proof.PointValue.lean ====
/-
  What one grid point leaves in the output's staging buffer.

  At grid point i = (row block, head) the body's single store covers the whole [1,256,64] staging buffer, so what the
  buffer holds afterwards is that store's value: the body's arithmetic applied to the a block, the mask rows and the
  [1,2048,64] slab the third load cuts out of the resident b buffer at the head's offset. That slab, read at
  (0, k, d), is the b buffer at (head, k, d). Together with the arithmetic read at an index this gives the stored
  block at (0, p, d) as the sum over k of (x0[0,p,k] * real(x1[p,k])) * x2[head,k,d].
-/
import proofs.«118540_g11879879542650_cont_sun_m_840_3_alg».proof.Proof.Gen.KernelIdeal.Frame
import proofs.«118540_g11879879542650_cont_sun_m_840_3_alg».proof.Proof.BlockValue
import Idealize.ShloMosaic.Lib.Pipeline.Value
import Idealize.ShloMosaic.Lib.Tactic

noncomputable section

open scoped BigOperators

namespace Cert.KernelIdeal.PointValue

open Cert.KernelIdeal Cert.KernelIdeal.Gen Idealize.ShloMosaic Idealize.ShloMosaic.TcCoe Idealize.SL.Sem
open Idealize.ShloMosaic.ValueIdx

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The [1,2048,64] slab of the resident b buffer that the body loads at grid point i: one head's matrix. -/
abbrev headSlab (i : grid0.Coords) (x2 : Vec F S16x2048x64 .f32) : Vec F S1x2048x64 .f32 :=
  View.ld x2 (Rect.unit (s := S16x2048x64) (k0_off1 i) S1x2048x64.size (k0_off1_inb i))

/-- The body's one store covers the output's staging buffer, so the buffer ends at the stored value: the body's
    arithmetic of the a block, the mask rows and the head's slab of b. -/
theorem stored_eq (c : Dev nD) (i : grid0.Coords) (a2 : Memref sig .tc .vmem S1x256x2048 .f32) (h2 : a2.IsWhole)
    (a3 : Memref sig .tc .vmem S256x2048 .i32) (h3 : a3.IsWhole) (a4 : Memref sig .tc .vmem S16x2048x64 .f32) (h4 : a4.IsWhole)
    (a5 : Memref sig .tc .vmem S1x256x64 .f32) (h5 : a5.IsWhole)
    (x0 : Vec F S1x256x2048 .f32) (x1 : Vec F S256x2048 .i32) (x2 : Vec F S16x2048x64 .f32) :
    out0_A_3 c i a2 h2 a3 h3 a4 h4 a5 h5 x0 x1 x2 = k0_pay1 x0 x1 (headSlab i x2) := by
  unfold out0_A_3
  rw [View.read_writes_eq_canon _ _ _ (cover0_A_3 c i a2 h2 a3 h3 a4 h4 a5 h5 x0 x1 x2)]
  unfold kernelRun0_A
  dsimp only
  rw [View.canon_unit_zero zeros3]
  simp only [View.readAt_eq_ld, h2.read_unread, h3.read_unread, h4.read_unread,
    View.ld_unit_zero (S := S1x256x2048) zeros3, View.ld_unit_zero (S := S256x2048) zeros2]

/-- The head's slab at (0, k, d) is the b buffer at (head, k, d): the load's rectangle starts at the head's index on
    the first axis and at zero on the other two. -/
theorem headSlab_apply (i : grid0.Coords) (x2 : Vec F S16x2048x64 .f32) (u : Fin 1) (k : Fin 2048) (d : Fin 64) :
    headSlab i x2 (ix3 u k d) = x2 (ix3 (⟨(i 1).val, (i 1).isLt⟩ : Fin 16) k d) := by
  show x2 _ = x2 _
  congr 1
  funext a
  apply Fin.ext
  have e := k0_off1_eq i
  have hu : u.val = 0 := by omega
  match a with
  | ⟨0, _⟩ => show k0_off1 i 0 + 1 * u.val = (i 1).val; rw [e, hu]; show (i 1).val + 1 * 0 = (i 1).val; omega
  | ⟨1, _⟩ => show k0_off1 i 1 + 1 * k.val = k.val; rw [e]; show 0 + 1 * k.val = k.val; omega
  | ⟨2, _⟩ => show k0_off1 i 2 + 1 * d.val = d.val; rw [e]; show 0 + 1 * d.val = d.val; omega

/-- Over the extended reals, the block a grid point stores, at (0, p, d). -/
theorem stored_apply (c : Dev nD) (i : grid0.Coords) (a2 : Memref sig .tc .vmem S1x256x2048 .f32) (h2 : a2.IsWhole)
    (a3 : Memref sig .tc .vmem S256x2048 .i32) (h3 : a3.IsWhole) (a4 : Memref sig .tc .vmem S16x2048x64 .f32) (h4 : a4.IsWhole)
    (a5 : Memref sig .tc .vmem S1x256x64 .f32) (h5 : a5.IsWhole)
    (x0 : Vec Ideal S1x256x2048 .f32) (x1 : Vec Ideal S256x2048 .i32) (x2 : Vec Ideal S16x2048x64 .f32)
    (u : Fin 1) (p : Fin 256) (d : Fin 64) :
    out0_A_3 (F := Ideal) c i a2 h2 a3 h3 a4 h4 a5 h5 x0 x1 x2 (ix3 u p d)
      = ∑ k : Fin 2048, (x0 (ix3 (0 : Fin 1) p k) * (((x1 (ix2 p k)).toInt : ℝ) : EReal))
          * x2 (ix3 (⟨(i 1).val, (i 1).isLt⟩ : Fin 16) k d) := by
  refine (congrFun (stored_eq (F := Ideal) c i a2 h2 a3 h3 a4 h4 a5 h5 x0 x1 x2) (ix3 u p d)).trans ?_
  refine (BlockValue.stored_apply x0 x1 (headSlab i x2) u p d).trans ?_
  refine Finset.sum_congr rfl fun k _ => ?_
  rw [headSlab_apply]

end Cert.KernelIdeal.PointValue

end
-- ==== Proof.ArrayValue.lean ====
/-
  From blocks to the array: after the pipeline the result array is one function of the three operand arrays.

  The grid has 8 row blocks by 16 heads. At the point (row block q, head h) the a window holds rows 256q .. 256q+255 of
  head h of the [16,2048,2048] array, the mask window the same rows of the [2048,2048] mask, the b window the whole
  [16,2048,64] array, and the result window is block (h, q, 0) of the [16,2048,64] result. Reading each staged block
  where the result block's rectangle says, the block a point writes back is the restriction to that rectangle of

      (h, r, d)  |->  sum over k of (A[h,r,k] * real(M[r,k])) * B[h,k,d].

  Every index (h, r, d) lies in the block of the point (r / 256, h), every point writes its block back, so the
  blocks cover the array and it ends holding that function everywhere.
-/
import proofs.«118540_g11879879542650_cont_sun_m_840_3_alg».proof.Proof.Gen.KernelIdeal.Frame
import proofs.«118540_g11879879542650_cont_sun_m_840_3_alg».proof.Proof.PointValue
import Idealize.ShloMosaic.Lib.Pipeline.Value
import Idealize.ShloMosaic.Lib.ValueIdx

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The pipeline's result array as one function of its three operand arrays: at (h, r, d) the sum over k of
    (A[h,r,k] * real(M[r,k])) * B[h,k,d]. -/
def product3 (A : S16x2048x2048.Idx → EReal) (M : S2048x2048.Idx → BitVec 32) (B : S16x2048x64.Idx → EReal) :
    S16x2048x64.Idx → EReal :=
  fun j => ∑ k : Fin 2048, (A (ix3 (j 0) (j 1) k) * (((M (ix2 (j 1) k)).toInt : ℝ) : EReal)) * B (ix3 (j 0) k (j 2))

/-- The printed index maps over the grid: window 0 (a) and window 3 (the result) sit at block (head, row block, 0),
    window 1 (the mask) at (row block, 0), window 2 (b) at the origin. -/
theorem index_facts : ∀ t : Fin cfg0.N,
    win0_0.index t (0 : Fin 3) = (grid0.coords t 1).val ∧ win0_0.index t (1 : Fin 3) = (grid0.coords t 0).val
    ∧ win0_0.index t (2 : Fin 3) = 0
    ∧ win0_1.index t (0 : Fin 2) = (grid0.coords t 0).val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = (grid0.coords t 1).val ∧ win0_3.index t (1 : Fin 3) = (grid0.coords t 0).val
    ∧ win0_3.index t (2 : Fin 3) = 0
    ∧ (grid0.coords t 1).val < 16 ∧ (grid0.coords t 0).val < 8 :=
  (by decide +kernel : ∀ t : Fin grid0.N, _)

/-- Every (head, row block) is some grid point's. -/
theorem index_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

theorem product3_apply (A : S16x2048x2048.Idx → EReal) (M : S2048x2048.Idx → BitVec 32) (B : S16x2048x64.Idx → EReal)
    (h : Fin 16) (r : Fin 2048) (d : Fin 64) :
    product3 A M B (ix3 h r d)
      = ∑ k : Fin 2048, (A (ix3 h r k) * (((M (ix2 r k)).toInt : ℝ) : EReal)) * B (ix3 h k d) := rfl

/-! ## The windows' blocks read off the arrays -/

/-- Row p, column k of the a block at point t is the a array at (head, 256 * row block + p, k). -/
theorem blockA (c : Dev nD) (t : Fin cfg0.N) (p : Fin 256) (k : Fin 2048) (h : Fin 16) (r : Fin 2048)
    (eh : h.val = (grid0.coords t 1).val) (er : r.val = (grid0.coords t 0).val * 256 + p.val) :
    (iblk m c 0 t : Vec Ideal S1x256x2048 .f32) (ix3 (0 : Fin 1) p k) = V m c main_v0 (ix3 h r k) := by
  obtain ⟨i0, i1, i2, -⟩ := index_facts t
  show V m c main_v0 (((cfg0.win 0).blk t).view.emb (ix3 (0 : Fin 1) p k)) = V m c main_v0 (ix3 h r k)
  refine congrArg (V m c main_v0) (funext fun a => Fin.ext ?_)
  match a with
  | ⟨0, _⟩ => show win0_0.index t (0 : Fin 3) * 1 + 1 * 0 = h.val; omega
  | ⟨1, _⟩ => show win0_0.index t (1 : Fin 3) * 256 + 1 * p.val = r.val; omega
  | ⟨2, _⟩ => show win0_0.index t (2 : Fin 3) * 2048 + 1 * k.val = k.val; omega

/-- Row p, column k of the mask block at point t is the mask array at (256 * row block + p, k). -/
theorem blockM (c : Dev nD) (t : Fin cfg0.N) (p : Fin 256) (k : Fin 2048) (r : Fin 2048)
    (er : r.val = (grid0.coords t 0).val * 256 + p.val) :
    (iblk m c 1 t : Vec Ideal S256x2048 .i32) (ix2 p k) = V m c main_v1 (ix2 r k) := by
  obtain ⟨-, -, -, i0, i1, -⟩ := index_facts t
  show V m c main_v1 (((cfg0.win 1).blk t).view.emb (ix2 p k)) = V m c main_v1 (ix2 r k)
  refine congrArg (V m c main_v1) (funext fun a => Fin.ext ?_)
  match a with
  | ⟨0, _⟩ => show win0_1.index t (0 : Fin 2) * 256 + 1 * p.val = r.val; omega
  | ⟨1, _⟩ => show win0_1.index t (1 : Fin 2) * 2048 + 1 * k.val = k.val; omega

/-- The b window's one block is the whole b array. -/
theorem blockB (c : Dev nD) (t : Fin cfg0.N) (h : Fin 16) (k : Fin 2048) (d : Fin 64) :
    (iblk m c 2 t : Vec Ideal S16x2048x64 .f32) (ix3 h k d) = V m c main_v2 (ix3 h k d) := by
  obtain ⟨-, -, -, -, -, i0, i1, i2, -⟩ := index_facts t
  show V m c main_v2 (((cfg0.win 2).blk t).view.emb (ix3 h k d)) = V m c main_v2 (ix3 h k d)
  refine congrArg (V m c main_v2) (funext fun a => Fin.ext ?_)
  match a with
  | ⟨0, _⟩ => show win0_2.index t (0 : Fin 3) * 16 + 1 * h.val = h.val; omega
  | ⟨1, _⟩ => show win0_2.index t (1 : Fin 3) * 2048 + 1 * k.val = k.val; omega
  | ⟨2, _⟩ => show win0_2.index t (2 : Fin 3) * 64 + 1 * d.val = d.val; omega

/-! ## What a point writes back -/

/-- Point t writes back block t of the product of the three operand arrays as the region finds them. -/
theorem flushed_eq (c : Dev nD) (t : Fin cfg0.N) :
    (dats m 0 c).flushed 3 t
      = ((cfg0.win 3).blk t).view.read (Elt Ideal) (product3 (V m c main_v0) (V m c main_v1) (V m c main_v2)) := by
  show (cfg0.win 3).cut (grid0.coords t) ((dats m 0 c).after 3 t) = _
  rw [after0_3]
  unfold outsAt0
  funext y
  obtain ⟨u, p, d, rfl⟩ : ∃ (u : Fin 1) (p : Fin 256) (d : Fin 64), y = ix3 u p d := ⟨y 0, y 1, y 2, eq_ix3 y⟩
  obtain ⟨-, -, -, -, -, -, -, -, j0, j1, j2, b1, b0⟩ := index_facts t
  have hu : u.val = 0 := by omega
  have hr : (grid0.coords t 0).val * 256 + p.val < 2048 := by have := p.isLt; omega
  have eE : ((cfg0.win 3).blk t).view.emb (ix3 u p d)
      = ix3 (⟨(grid0.coords t 1).val, b1⟩ : Fin 16) (⟨(grid0.coords t 0).val * 256 + p.val, hr⟩ : Fin 2048) d :=
    funext fun a => Fin.ext (by
      match a with
      | ⟨0, _⟩ => show win0_3.index t (0 : Fin 3) * 1 + 1 * u.val = (grid0.coords t 1).val; omega
      | ⟨1, _⟩ => show win0_3.index t (1 : Fin 3) * 256 + 1 * p.val = (grid0.coords t 0).val * 256 + p.val; omega
      | ⟨2, _⟩ => show win0_3.index t (2 : Fin 3) * 64 + 1 * d.val = d.val; omega)
  show out0_A_3 (F := Ideal) c (grid0.coords t) (ms0_0 t) (hs0_0 t) (ms0_1 t) (hs0_1 t) (ms0_2 t) (hs0_2 t) (ms0_3 t) (hs0_3 t)
        (iblk m c 0 t) (iblk m c 1 t) (iblk m c 2 t) (ix3 u p d)
      = product3 (V m c main_v0) (V m c main_v1) (V m c main_v2) (((cfg0.win 3).blk t).view.emb (ix3 u p d))
  rw [eE, product3_apply]
  refine (PointValue.stored_apply c (grid0.coords t) (ms0_0 t) (hs0_0 t) (ms0_1 t) (hs0_1 t) (ms0_2 t) (hs0_2 t) (ms0_3 t) (hs0_3 t)
    (iblk m c 0 t) (iblk m c 1 t) (iblk m c 2 t) u p d).trans ?_
  refine Finset.sum_congr rfl fun k _ => ?_
  rw [blockA m c t p k ⟨(grid0.coords t 1).val, b1⟩ ⟨(grid0.coords t 0).val * 256 + p.val, hr⟩ rfl rfl,
    blockM m c t p k ⟨(grid0.coords t 0).val * 256 + p.val, hr⟩ rfl,
    blockB m c t ⟨(grid0.coords t 1).val, b1⟩ k d]

/-! ## The blocks cover the result array -/

/-- An index of the result array is in point t's block iff each coordinate is in the block's range on its axis. -/
theorem mem_blk (t : Fin cfg0.N) (i : S16x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3).slice (win0_3.rect t)).set ↔ _
  rw [View.set_slice_whole, Rect.mem_set_unit]
  exact Iff.rfl

/-- Index (h, r, d) is in the block of the point at head h and row block r / 256. -/
theorem cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- So after the run the result array holds the product of the operand arrays as the region found them. -/
theorem final (c : Dev nD) :
    (dats m 0 c).arrAt 3 cfg0.N = product3 (V m c main_v0) (V m c main_v1) (V m c main_v2) :=
  (dats m 0 c).arrAt_eq_of_cover 3 (product3 (V m c main_v0) (V m c main_v1) (V m c main_v2))
    (fun t _ => flushed_eq m c t) cover

end Cert.KernelIdeal.ArrayValue

end
-- ==== Proof.HostValue.lean ====
/-
  Around the pipeline: the program's result as a function of its arguments.

  Before the pipeline the program only drops unit axes: a [1,16,2048,2048] -> [16,2048,2048],
  mask [1,1,2048,2048] -> [2048,2048], b [1,16,2048,64] -> [16,2048,64]; after it, it puts the unit axis back on the
  [16,2048,64] result. A cast that drops or adds leading unit axes reads the same entries at the same remaining
  coordinates, so the pipeline's product of the cast arrays, cast back, is at (0, h, r, d) the sum over k of
  (a[0,h,r,k] * real(mask[0,0,r,k])) * b[0,h,k,d]: the masked product of the arguments as launched. The frame run's
  post gives the result buffer as the last cast applied to the result array, and the arguments unchanged.
-/
import proofs.«118540_g11879879542650_cont_sun_m_840_3_alg».proof.Proof.Gen.KernelIdeal.Frame
import proofs.«118540_g11879879542650_cont_sun_m_840_3_alg».proof.Proof.ArrayValue
import proofs.«118540_g11879879542650_cont_sun_m_840_3_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.KernelIdeal.HostValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem entryA (c : Dev nD) :
    (V m c main_v0 : S16x2048x2048.Idx → EReal)
      = shapeCast S16x2048x2048 (m ((c : Thread nD τ).loc main_arg0)) shapeCasts_S1x16x2048x2048_S16x2048x2048 := by
  show StableHlo.after hostOps0 (fun b => m (c, b)) (Proc.devRef .tc main_v0) = _
  after_results
  rfl

theorem entryM (c : Dev nD) :
    (V m c main_v1 : S2048x2048.Idx → BitVec 32)
      = shapeCast S2048x2048 (m ((c : Thread nD τ).loc main_arg1)) shapeCasts_S1x1x2048x2048_S2048x2048 := by
  show StableHlo.after hostOps0 (fun b => m (c, b)) (Proc.devRef .tc main_v1) = _
  after_results
  rfl

theorem entryB (c : Dev nD) :
    (V m c main_v2 : S16x2048x64.Idx → EReal)
      = shapeCast S16x2048x64 (m ((c : Thread nD τ).loc main_arg2)) shapeCasts_S1x16x2048x64_S16x2048x64 := by
  show StableHlo.after hostOps0 (fun b => m (c, b)) (Proc.devRef .tc main_v2) = _
  after_results
  rfl

theorem tail_eq (c : Dev nD) :
    (Pipeline.afterTail₀ cfgs (dats m) 0 (V0 m) [hostOps1] c main_v4 : S1x16x2048x64.Idx → EReal)
      = shapeCast S1x16x2048x64 ((dats m 0 c).arrAt 3 cfg0.N) shapeCasts_S16x2048x64_S1x16x2048x64 := by
  unfold Pipeline.afterTail₀
  show StableHlo.after hostOps1 _ (Proc.devRef .tc main_v4) = _
  after_results
  exact congrArg (fun X : S16x2048x64.Idx → EReal => shapeCast S1x16x2048x64 X shapeCasts_S16x2048x64_S1x16x2048x64)
    (Pipeline.withArrays_arr spec0 launch0.win.arr_inj c (V0 m c) (fun w => (dats m 0 c).arrAt w cfg0.N) 3)

/-- A [1,1,a,b] array cast to [a,b] reads, at (i, j), the operand at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

open Cert.MaskedProduct in
/-- With the unit axes dropped from the arguments and put back on the result, the pipeline's product is the masked
    product of the arguments. -/
theorem result_eq (a : S1x16x2048x2048.Idx → EReal) (mk : S1x1x2048x2048.Idx → BitVec 32) (b : S1x16x2048x64.Idx → EReal) :
    shapeCast S1x16x2048x64
        (ArrayValue.product3 (shapeCast S16x2048x2048 a shapeCasts_S1x16x2048x2048_S16x2048x2048)
          (shapeCast S2048x2048 mk shapeCasts_S1x1x2048x2048_S2048x2048)
          (shapeCast S16x2048x64 b shapeCasts_S1x16x2048x64_S16x2048x64))
        shapeCasts_S16x2048x64_S1x16x2048x64
      = maskedProduct a mk b := by
  funext i
  obtain ⟨z, h, r, d, rfl⟩ : ∃ (z : Fin 1) (h : Fin 16) (r : Fin 2048) (d : Fin 64), i = ix4 z h r d :=
    ⟨i 0, i 1, i 2, i 3, eq_ix4 i⟩
  obtain rfl : z = 0 := Subsingleton.elim _ _
  rw [shapeCast_abc_1abc_apply, ArrayValue.product3_apply, maskedProduct_apply]
  refine Finset.sum_congr rfl fun k _ => ?_
  rw [shapeCast_1abc_abc_apply, shapeCast_1abc_abc_apply, shapeCast_11ab_ab_apply]
  rfl

open Cert.MaskedProduct in
/-- The program's result: the masked product of the three arguments as launched. -/
theorem result (c : Dev nD) :
    (Pipeline.afterTail₀ cfgs (dats m) 0 (V0 m) [hostOps1] c main_v4 : S1x16x2048x64.Idx → EReal)
      = maskedProduct (m ((c : Thread nD τ).loc main_arg0)) (m ((c : Thread nD τ).loc main_arg1))
          (m ((c : Thread nD τ).loc main_arg2)) := by
  rw [tail_eq, ArrayValue.final, entryA, entryM, entryB]
  exact result_eq _ _ _

open Cert.MaskedProduct in
/-- Every weakly fair execution of the idealized kernel program ends with its result at the masked product of the
    arguments and the arguments unchanged. -/
theorem run : θ_run defs (onTc (τ := τ) (main (F := Ideal))) ⟨m, fun _ => 0, ρ⟩ fun r => ∀ c : Dev nD,
      r.2.mem ((c : Thread nD τ).loc main_v4)
        = maskedProduct (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HostValue

end
-- ==== Proof.lean ====
/-
  A masked batched matrix product against its plain jnp reference, over the extended reals.

  Both programs compute, for a: [1,16,2048,2048], an integer mask: [1,1,2048,2048] shared by the sixteen heads and
  b: [1,16,2048,64],

      out[0,h,r,d] = sum over k < 2048 of (a[0,h,r,k] * mask[0,0,r,k]) * b[0,h,k,d].

  The kernel drops the unit axes, walks a grid of 8 row blocks by 16 heads, and at each point multiplies a
  256 x 2048 block of one head's a, masked entry by entry, with that head's 2048 x 64 matrix of b into a zero
  accumulator; each point's 256 x 64 product is one block of the result, and the blocks tile it. The reference
  converts the mask to reals, repeats it over the heads, multiplies it into a and contracts with b, heads paired.
  Entry by entry the two are the same sum of the same terms in the same order, so the proof is re-indexing only:
  no law of extended-real arithmetic that could fail at an infinity is used, and the finiteness precondition is
  never opened.

  The three frames are the two programs' runs with their results dropped; the idealization rewrote nothing, so the
  preservation claim is trivial; the algebraic claim pairs the kernel program's run (its result the masked product
  of its arguments) with the reference's run (its result term, read index by index, the same masked product).
-/
import proofs.«118540_g11879879542650_cont_sun_m_840_3_alg».proof.Defs
import proofs.«118540_g11879879542650_cont_sun_m_840_3_alg».proof.Proof.Gen.Kernel
import proofs.«118540_g11879879542650_cont_sun_m_840_3_alg».proof.Proof.Gen.Kernel.Skeleton
import proofs.«118540_g11879879542650_cont_sun_m_840_3_alg».proof.Proof.Gen.Kernel.Launch
import proofs.«118540_g11879879542650_cont_sun_m_840_3_alg».proof.Proof.Gen.Kernel.Points
import proofs.«118540_g11879879542650_cont_sun_m_840_3_alg».proof.Proof.Gen.Kernel.Frame
import proofs.«118540_g11879879542650_cont_sun_m_840_3_alg».proof.Proof.Gen.KernelIdeal
import proofs.«118540_g11879879542650_cont_sun_m_840_3_alg».proof.Proof.Gen.KernelIdeal.Skeleton
import proofs.«118540_g11879879542650_cont_sun_m_840_3_alg».proof.Proof.Gen.KernelIdeal.Launch
import proofs.«118540_g11879879542650_cont_sun_m_840_3_alg».proof.Proof.Gen.KernelIdeal.Points
import proofs.«118540_g11879879542650_cont_sun_m_840_3_alg».proof.Proof.Gen.KernelIdeal.Frame
import proofs.«118540_g11879879542650_cont_sun_m_840_3_alg».proof.Proof.Gen.ReferenceIdeal
import proofs.«118540_g11879879542650_cont_sun_m_840_3_alg».proof.Proof.Gen.Pre_finite_inputs
import proofs.«118540_g11879879542650_cont_sun_m_840_3_alg».proof.Proof.Gen.ReferenceIdeal.Run
import proofs.«118540_g11879879542650_cont_sun_m_840_3_alg».proof.Proof.Gen.ReferenceIdeal.Read
import proofs.«118540_g11879879542650_cont_sun_m_840_3_alg».proof.Proof.Spec
import proofs.«118540_g11879879542650_cont_sun_m_840_3_alg».proof.Proof.RefValue
import proofs.«118540_g11879879542650_cont_sun_m_840_3_alg».proof.Proof.HostValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is four host operations in a row: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the three arguments, both programs end with the masked product of those arguments. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  exact Cert.ReferenceIdeal.RefValue.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
